-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x4 : Shape := ⟨3, ![128, 512, 4]⟩
abbrev S_ : Shape := ⟨0, ![]⟩

class Facts : Prop where
  bcast_S_S128x512x4 : S_.BroadcastsInDim S128x512x4 (![] : Fin 0 → Fin S128x512x4.rank)
  reducesTo_S128x512x4_S_d0_1_2 : S128x512x4.ReducesTo [0, 1, 2] S_
  h_S_ : 0 < S_.numel

variable [Facts]

def fn {F : FTy → Type} [FloatOps F] (main_arg0 : FVec F S128x512x4 .f32) : IVec S_ 1 :=
  let main_v0 : FVec F S128x512x4 .f32 := Host.absf main_arg0
  let main_cst : FVec F S_ .f32 := constant S_ .f32 0x7F800000#32
  let main_v1 : FVec F S128x512x4 .f32 := broadcastInDim S128x512x4 ![] bcast_S_S128x512x4 main_cst
  let main_v2 : IVec S128x512x4 1 := cmpf .olt main_v0 main_v1
  let main_c : IVec S_ 1 := constantI S_ 1 1#1
  let main_v3 : IVec S_ 1 := (fun x v => Host.reduce IntOp.andi x v reducesTo_S128x512x4_S_d0_1_2 h_S_) main_v2 main_c
  main_v3
-- ==== Kernel.lean ====
abbrev S128x512x4 : Shape := ⟨3, ![128, 512, 4]⟩
abbrev S128x512x512 : Shape := ⟨3, ![128, 512, 512]⟩
abbrev S1x512x4 : Shape := ⟨3, ![1, 512, 4]⟩
abbrev S1x512x512 : Shape := ⟨3, ![1, 512, 512]⟩
abbrev S512x4 : Shape := ⟨2, ![512, 4]⟩
abbrev S1x4 : Shape := ⟨2, ![1, 4]⟩
abbrev S512x512 : Shape := ⟨2, ![512, 512]⟩
abbrev S128x512x512x1 : Shape := ⟨4, ![128, 512, 512, 1]⟩

abbrev nBuf : Space → Nat
  | .hbm => 3
  | .vmem => 4
  | .smem => 0
  | _ => 0

abbrev bufTy : (tb : Table) → Fin (tcTables nBuf tb) → BufTy
  | .hbm, ⟨0, _⟩ => ⟨S128x512x4, .f32⟩
  | .hbm, ⟨1, _⟩ => ⟨S128x512x512, .f32⟩
  | .hbm, ⟨2, _⟩ => ⟨S128x512x512x1, .f32⟩
  | .local _ .vmem, ⟨0, _⟩ => ⟨S1x512x4, .f32⟩
  | .local _ .vmem, ⟨1, _⟩ => ⟨S1x512x4, .f32⟩
  | .local _ .vmem, ⟨2, _⟩ => ⟨S1x512x512, .f32⟩
  | .local _ .vmem, ⟨3, _⟩ => ⟨S1x512x512, .f32⟩
  | _, _ => ⟨S128x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  iota_S1x4_d1_w32 : S1x4.Iotas .tc 32 [1]
  broadcasts_S1x4_S512x4 : S1x4.Broadcasts S512x4
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  bcast_S128x512x512_S128x512x512x1_0_1_2 : S128x512x512.BroadcastsInDim S128x512x512x1 (![0, 1, 2] : Fin 3 → Fin S128x512x512x1.rank)
  dot_S512x4_S512x4_S512x512_1_1_0_0_n_n_wf : DotDims.WF S512x4 S512x4 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4.size a ≤ S128x512x4.size a
  hwx0_0 : ∀ i : grid0.Coords, EltTy.bits .f32 = 32 ∨ (Rect.block (s := S128x512x4) S1x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S128x512x512.size a
  hwx0_1 : ∀ i : grid0.Coords, EltTy.bits .f32 = 32 ∨ (Rect.block (s := S128x512x512) S1x512x512.size (cc0_transform_1 i) (hinb0_1 i)).WholeWords (EltTy.packing .f32)

variable [Facts₀]

def dot_S512x4_S512x4_S512x512_1_1_0_0_n_n : DotDims S512x4 S512x4 S512x512 where
  lhsContracting := [1]
  rhsContracting := [1]
  lhsNonContracting := [0]
  rhsNonContracting := [0]
  lhsBatch := []
  rhsBatch := []
  wf := dot_S512x4_S512x4_S512x512_1_1_0_0_n_n_wf

abbrev win0_0 : Pipeline.Window sig grid0 :=
  Pipeline.Window.ofSpec (Memref.whole main_arg0) S1x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x512x4 : Shape := ⟨3, ![128, 512, 4]⟩
abbrev S4 : Shape := ⟨1, ![4]⟩
abbrev S1x1x4 : Shape := ⟨3, ![1, 1, 4]⟩
abbrev S128x512x512 : Shape := ⟨3, ![128, 512, 512]⟩
abbrev S128x512x512x1 : Shape := ⟨4, ![128, 512, 512, 1]⟩

abbrev nBuf : Space → Nat
  | .hbm => 7
  | .vmem => 0
  | .smem => 0
  | _ => 0

abbrev bufTy : (tb : Table) → Fin (tcTables nBuf tb) → BufTy
  | .hbm, ⟨0, _⟩ => ⟨S128x512x4, .f32⟩
  | .hbm, ⟨1, _⟩ => ⟨S4, .f32⟩
  | .hbm, ⟨2, _⟩ => ⟨S1x1x4, .f32⟩
  | .hbm, ⟨3, _⟩ => ⟨S128x512x4, .f32⟩
  | .hbm, ⟨4, _⟩ => ⟨S128x512x4, .f32⟩
  | .hbm, ⟨5, _⟩ => ⟨S128x512x512, .f32⟩
  | .hbm, ⟨6, _⟩ => ⟨S128x512x512x1, .f32⟩
  | _, _ => ⟨S128x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S4_S1x1x4_2 : S4.BroadcastsInDim S1x1x4 (![2] : Fin 1 → Fin S1x1x4.rank)
  bcast_S1x1x4_S128x512x4_0_1_2 : S1x1x4.BroadcastsInDim S128x512x4 (![0, 1, 2] : Fin 3 → Fin S128x512x4.rank)
  bcast_S128x512x512_S128x512x512x1_0_1_2 : S128x512x512.BroadcastsInDim S128x512x512x1 (![0, 1, 2] : Fin 3 → Fin S128x512x512x1.rank)
  dot_S128x512x4_S128x512x4_S128x512x512_2_2_1_1_0_0_wf : DotDims.WF S128x512x4 S128x512x4 S128x512x512 [2] [2] [1] [1] [0] [0]

variable [Facts₀]

def dot_S128x512x4_S128x512x4_S128x512x512_2_2_1_1_0_0 : DotDims S128x512x4 S128x512x4 S128x512x512 where
  lhsContracting := [2]
  rhsContracting := [2]
  lhsNonContracting := [1]
  rhsNonContracting := [1]
  lhsBatch := [0]
  rhsBatch := [0]
  wf := dot_S128x512x4_S128x512x4_S128x512x512_2_2_1_1_0_0_wf

class Facts : Prop extends Facts₀ where

variable [Facts]
-- ==== Proof.Minkowski.lean ====
/-
  The Minkowski Gram array of a batch of four-momenta, as ONE function of the argument array.
  For event `b` and particles `n`, `m`:
      gram x (b, n, m) = Σ_{d < 4} x[b, n, d] · (x[b, m, d] · η_d),
  where η = (+1, −1, −1, −1) is the metric's diagonal. Each entry of η is kept as the float word that
  both programs print (0x3F800000 for +1, 0xBF800000 for −1): the same word stands on both sides of the
  equivalence, so its value is never needed. The sum is over the extended reals, whose addition is
  commutative and associative, and the two programs add the same four products: no finiteness enters.
-/
import Idealize.ShloMosaic.PureOps.Ideal
import Idealize.ShloMosaic.Lib.ValueIdx
import Idealize.ShloMosaic.Lib.Pipeline.Value

noncomputable section

open scoped BigOperators

namespace Cert.Minkowski

open Idealize.ShloMosaic Idealize.ShloMosaic.ValueIdx

/-- The metric's diagonal entry on axis `d`: +1 on the time axis, −1 on the three space axes. -/
def eta (d : Fin 4) : EReal :=
  if d.val = 0 then Ideal.ofBits .f32 0x3F800000#32 else Ideal.ofBits .f32 0xBF800000#32

/-- The Minkowski product of particles `n` and `m` of event `b`: the second factor carries the metric. -/
def dot4 (x : (⟨3, ![128, 512, 4]⟩ : Shape).Idx → EReal) (b : Fin 128) (n m : Fin 512) : EReal :=
  ∑ d : Fin 4, x (ix3 b n d) * (x (ix3 b m d) * eta d)

/-- The Gram array [128, 512, 512]: entry (b, n, m) is the Minkowski product of particles n and m of event b. -/
def gram (x : (⟨3, ![128, 512, 4]⟩ : Shape).Idx → EReal) : (⟨3, ![128, 512, 512]⟩ : Shape).Idx → EReal :=
  fun i => dot4 x (i 0) (i 1) (i 2)

/-- The Gram array read at coordinates. -/
theorem gram_ix3 (x : (⟨3, ![128, 512, 4]⟩ : Shape).Idx → EReal) (b : Fin 128) (n m : Fin 512) :
    gram x (ix3 b n m) = dot4 x b n m := rfl

/-- The result both programs return: the Gram array under a trailing unit axis, [128, 512, 512, 1]. -/
def gram4 (x : (⟨3, ![128, 512, 4]⟩ : Shape).Idx → EReal) : (⟨4, ![128, 512, 512, 1]⟩ : Shape).Idx → EReal :=
  fun i => dot4 x (i 0) (i 1) (i 2)

/-- Adding the trailing unit axis to the Gram array gives that result: entry (b, n, m, 0) reads entry (b, n, m). -/
theorem gram_unit_axis (x : (⟨3, ![128, 512, 4]⟩ : Shape).Idx → EReal)
    (h : (⟨3, ![128, 512, 512]⟩ : Shape).BroadcastsInDim ⟨4, ![128, 512, 512, 1]⟩ (![0, 1, 2] : Fin 3 → Fin 4)) :
    broadcastInDim ⟨4, ![128, 512, 512, 1]⟩ ![0, 1, 2] h (gram x) = gram4 x := by
  funext i
  refine (broadcastInDim_apply _ h (gram x) i (ix3 (i 0) (i 1) (i 2)) fun a => ?_).trans rfl
  match a with
  | ⟨0, _⟩ => rfl
  | ⟨1, _⟩ => rfl
  | ⟨2, _⟩ => rfl

/-- The metric's entry from the axis number: the word +1.0 at 0, the word −1.0 elsewhere. -/
theorem eta_of_word (d : Fin 4) :
    Scalar.select (IntOp.cmpi .eq (BitVec.ofNat 32 d.val) 0#32) (Ideal.ofBits .f32 0x3F800000#32) (Ideal.ofBits .f32 0xBF800000#32)
      = eta d := by
  match d with
  | ⟨0, _⟩ => rfl
  | ⟨1, _⟩ => rfl
  | ⟨2, _⟩ => rfl
  | ⟨3, _⟩ => rfl

end Cert.Minkowski

end
-- ==== Proof.KernelBlock.lean ====
/-
  What the kernel's body stores at one grid point, read at an index. The body loads the point's [1, 512, 4] block q,
  multiplies it by the metric's diagonal built from an iota along the last axis (+1 where the axis number is 0, −1
  elsewhere), and contracts q with that product over the last axis into a zero accumulator; the changes of float
  format in between are the identity at the ideal values. So the stored [1, 512, 512] block holds, at (0, n, m),
      Σ_{d < 4} q[0, n, d] · (q[0, m, d] · η_d):
  the Minkowski product of rows n and m of the block.
-/
import proofs.«171760_j52725018525982_1_alg».proof.Proof.Gen.KernelIdeal.Skeleton
import proofs.«171760_j52725018525982_1_alg».proof.Proof.Minkowski
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The matrix product's dimension numbers: axis 1 of each operand contracted, axis 0 of each free, no batch axis. -/
abbrev dims := dot_S512x4_S512x4_S512x512_1_1_0_0_n_n

/-! ### Where the product reads its operands: axis by axis -/

theorem lhs_axis0 (i : S512x512.Idx) (q : dims.contr.Idx) : (dims.lhsIdx i q 0).val = (i 0).val := by
  unfold DotDims.lhsIdx
  rw [dif_neg (show ¬(0 : Fin S512x4.rank) ∈ dims.lhsBatch by decide), dif_pos (show (0 : Fin S512x4.rank) ∈ dims.lhsNonContracting by decide)]
  rfl
theorem lhs_axis1 (i : S512x512.Idx) (q : dims.contr.Idx) : (dims.lhsIdx i q 1).val = (q ⟨0, by decide⟩).val :=
  dims.lhsIdx_val_of_single rfl i q
theorem rhs_axis0 (i : S512x512.Idx) (q : dims.contr.Idx) : (dims.rhsIdx i q 0).val = (i 1).val := by
  unfold DotDims.rhsIdx
  rw [dif_neg (show ¬(0 : Fin S512x4.rank) ∈ dims.rhsBatch by decide), dif_pos (show (0 : Fin S512x4.rank) ∈ dims.rhsNonContracting by decide)]
  rfl
theorem rhs_axis1 (i : S512x512.Idx) (q : dims.contr.Idx) : (dims.rhsIdx i q 1).val = (q ⟨0, by decide⟩).val :=
  dims.rhsIdx_val_of_single rfl i q

/-! ### The metric's diagonal as the body builds it -/

/-- The select on "the last-axis number is 0" between the words +1.0 and −1.0, read at column `d`, is `η_d`. -/
theorem sign_apply (d : Fin 4) :
    (select (cmpi .eq (iota .tc S1x4 32 [1] iota_S1x4_d1_w32) (broadcast S1x4 (0#32 : BitVec 32)))
        (broadcast S1x4 (Scalar.ofBits (F := Ideal) .f32 0x3F800000#32)) (broadcast S1x4 (Scalar.ofBits (F := Ideal) .f32 0xBF800000#32))
        : FVec Ideal S1x4 .f32) (ix2 (0 : Fin 1) d)
      = Minkowski.eta d := by
  rw [select_apply]
  show Scalar.select (IntOp.cmpi .eq (iota .tc S1x4 32 [1] iota_S1x4_d1_w32 (ix2 (0 : Fin 1) d)) 0#32) _ _ = _
  rw [iota_single_apply]
  exact Minkowski.eta_of_word d

/-! ### The stored block at an index -/

/-- The body's stored value at (u, n, m) is the Minkowski product of rows n and m of the loaded block. -/
theorem payload_apply (q : FVec Ideal S1x512x4 .f32) (u : Fin 1) (n mm : Fin 512) :
    k0_pay1 (F := Ideal) q (ix3 u n mm)
      = ∑ d : Fin 4, q (ix3 (0 : Fin 1) n d) * (q (ix3 (0 : Fin 1) mm d) * Minkowski.eta d) := by
  unfold k0_pay1
  refine (shapeCast_ab_1ab_apply _ _ u n mm).trans ?_
  refine (Ideal.matmul_constant_zero_apply dims none _ _ (ix2 n mm)).trans ?_
  rw [← Equiv.sum_comp (contrEquiv1 dims 4 rfl rfl).symm]
  refine Finset.sum_congr rfl fun d _ => ?_
  have hk := contrEquiv1_symm_val dims 4 rfl rfl d
  have el : dims.lhsIdx (ix2 n mm) ((contrEquiv1 dims 4 rfl rfl).symm d) = ix2 n d := funext fun a => Fin.ext (by
    match a with
    | ⟨0, _⟩ => exact lhs_axis0 _ _
    | ⟨1, _⟩ => exact (lhs_axis1 _ _).trans hk)
  have er : dims.rhsIdx (ix2 n mm) ((contrEquiv1 dims 4 rfl rfl).symm d) = ix2 mm d := funext fun a => Fin.ext (by
    match a with
    | ⟨0, _⟩ => exact rhs_axis0 _ _
    | ⟨1, _⟩ => exact (rhs_axis1 _ _).trans hk)
  rw [el, er, truncf_apply, truncf_apply, mulf_apply, shapeCast_1ab_ab_apply, shapeCast_1ab_ab_apply,
    broadcastTo_1b_ab_apply, sign_apply]

end Cert.KernelIdeal.Block

end
-- ==== Proof.KernelArray.lean ====
/-
  From the kernel's blocks to its result. Grid point t reads block (t, 0, 0) of the argument — event t's
  [512, 4] momenta — and writes block (t, 0, 0) of the [128, 512, 512] output, which is event t's slab of the Gram
  array; the 128 output blocks tile the array, so after the region the array IS the Gram array of the argument.
  The one host operation after the region adds a trailing unit axis to it, which gives the result `Minkowski.gram4`.
-/
import proofs.«171760_j52725018525982_1_alg».proof.Proof.Gen.KernelIdeal.Frame
import proofs.«171760_j52725018525982_1_alg».proof.Proof.KernelBlock
import Idealize.ShloMosaic.Lib.Pipeline.Value
import Idealize.ShloMosaic.Lib.StableHlo.Run
import Idealize.ShloMosaic.Lib.Tactic

noncomputable section

open scoped BigOperators

namespace Cert.KernelIdeal.GramArray

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- Both windows' blocks at point t are block (t, 0, 0): decided over the 128 points. -/
theorem block_index : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- One stored block against the Gram array: if the loaded block q is event b's rows of X, the body's stored value at
    (u, n, m) is the Gram array of X at (b, n, m). -/
theorem block_entry (q : FVec Ideal S1x512x4 .f32) (X : FVec Ideal S128x512x4 .f32) (b : Fin 128)
    (hq : ∀ (n : Fin 512) (d : Fin 4), q (ix3 (0 : Fin 1) n d) = X (ix3 b n d))
    (j : S1x512x512.Idx) (i : S128x512x512.Idx) (h0 : (i 0).val = b.val) (h1 : (i 1).val = (j 1).val) (h2 : (i 2).val = (j 2).val) :
    k0_pay1 (F := Ideal) q j = Minkowski.gram X i := by
  obtain ⟨u, n, mm, rfl⟩ : ∃ (u : Fin 1) (n mm : Fin 512), j = ix3 u n mm := ⟨j 0, j 1, j 2, eq_ix3 j⟩
  obtain ⟨b', n', m', rfl⟩ : ∃ (b' : Fin 128) (n' m' : Fin 512), i = ix3 b' n' m' := ⟨i 0, i 1, i 2, eq_ix3 i⟩
  obtain rfl : b' = b := Fin.ext h0
  obtain rfl : n' = n := Fin.ext h1
  obtain rfl : m' = mm := Fin.ext h2
  rw [Block.payload_apply, Minkowski.gram_ix3]
  unfold Minkowski.dot4
  exact Finset.sum_congr rfl fun d _ => by rw [hq, hq]

/-- The input block at point t is event t's rows of the argument. -/
theorem iblk_apply (c : Dev nD) (t : Fin cfg0.N) (n : Fin 512) (d : Fin 4) :
    (iblk m c 0 t : FVec Ideal S1x512x4 .f32) (ix3 (0 : Fin 1) n d)
      = (V m c main_arg0 : FVec Ideal S128x512x4 .f32) (ix3 (⟨t.val, lt_of_lt_of_eq t.isLt N_0⟩ : Fin 128) n d) := by
  obtain ⟨e0, e1, e2, -, -, -⟩ := block_index t
  unfold iblk
  rw [View.read_apply]
  show V m c main_arg0 (((cfg0.win 0).blk t).view.emb (ix3 (0 : Fin 1) n d)) = V m c main_arg0 _
  have h : ((cfg0.win 0).blk t).view.emb (ix3 (0 : Fin 1) n d) = (ix3 (⟨t.val, lt_of_lt_of_eq t.isLt N_0⟩ : Fin 128) n d : S128x512x4.Idx) := by
    funext a; apply Fin.ext
    match a with
    | ⟨0, _⟩ => show win0_0.index t (0 : Fin 3) * 1 + 1 * 0 = t.val; omega
    | ⟨1, _⟩ => show win0_0.index t (1 : Fin 3) * 512 + 1 * n.val = n.val; omega
    | ⟨2, _⟩ => show win0_0.index t (2 : Fin 3) * 4 + 1 * d.val = d.val; omega
  rw [h]

/-- WHAT POINT t WRITES BACK is block t of the Gram array of the argument as the region finds it. -/
theorem flushed_eq (c : Dev nD) (t : Fin cfg0.N) :
    (dats m 0 c).flushed 1 t = ((cfg0.win 1).blk t).view.read (Elt Ideal) (Minkowski.gram (V m c main_arg0)) := by
  show (cfg0.win 1).cut (grid0.coords t) ((dats m 0 c).after 1 t) = _
  rw [after0_1]
  unfold out0_1
  rw [View.canon_unit_zero zero_offsets]
  simp only [View.ld_unit_zero (S := S1x512x4) zero_offsets]
  obtain ⟨-, -, -, f0, f1, f2⟩ := block_index t
  funext j
  show k0_pay1 (F := Ideal) (iblk m c 0 t) j = Minkowski.gram (V m c main_arg0) (((cfg0.win 1).blk t).view.emb j)
  refine block_entry (iblk m c 0 t) (V m c main_arg0) ⟨t.val, lt_of_lt_of_eq t.isLt N_0⟩ (iblk_apply m c t) j _ ?_ ?_ ?_
  · show win0_1.index t (0 : Fin 3) * 1 + 1 * (j 0).val = t.val
    have hj : (j 0).val < 1 := (j 0).isLt
    omega
  · show win0_1.index t (1 : Fin 3) * 512 + 1 * (j 1).val = (j 1).val
    omega
  · show win0_1.index t (2 : Fin 3) * 512 + 1 * (j 2).val = (j 2).val
    omega

/-- An index of the output array is in point t's block iff each coordinate is in the block's range on its axis. -/
theorem mem_blk (t : Fin cfg0.N) (i : S128x512x512.Idx) :
    i ∈ ((cfg0.win 1).blk t).view.set ↔ ∀ a : Fin 3, win0_1.index t a * S1x512x512.size a ≤ (i a).val ∧ (i a).val < win0_1.index t a * S1x512x512.size a + S1x512x512.size a := by
  show i ∈ ((View.whole main_v0).slice (win0_1.rect t)).set ↔ _
  rw [View.set_slice_whole, Rect.mem_set_unit]
  exact Iff.rfl

/-- Every index (b, n, m) of the output array lies in the block of point b. -/
theorem covered (i : S128x512x512.Idx) : ∃ t : Fin cfg0.N, (cfg0.win 1).flush t = true ∧ i ∈ ((cfg0.win 1).blk t).view.set := by
  have hi0 : (i 0).val < 128 := (i 0).isLt
  have hi1 : (i 1).val < 512 := (i 1).isLt
  have hi2 : (i 2).val < 512 := (i 2).isLt
  obtain ⟨t, ht⟩ : ∃ t : Fin cfg0.N, t.val = (i 0).val := ⟨⟨(i 0).val, lt_of_lt_of_eq hi0 N_0.symm⟩, rfl⟩
  obtain ⟨-, -, -, f0, f1, f2⟩ := block_index t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 512 ≤ (i 2).val ∧ (i 2).val < win0_1.index t (2 : Fin 3) * 512 + 512; omega

/-- THE OUTPUT ARRAY after the region is the Gram array of the argument. -/
theorem final (c : Dev nD) : (dats m 0 c).arrAt 1 cfg0.N = Minkowski.gram (m ((c : Thread nD τ).loc main_arg0)) :=
  (dats m 0 c).arrAt_eq_of_cover 1 (Minkowski.gram (V m c main_arg0)) (fun t _ => flushed_eq m c t) covered

/-- The program's result buffer after the host operation that follows the region: the Gram array with a trailing unit axis. -/
theorem tail_eq (c : Dev nD) :
    Pipeline.afterTail₀ cfgs (dats m) 0 (V0 m) [hostOps1] c main_v1 = Minkowski.gram4 (m ((c : Thread nD τ).loc main_arg0)) := by
  unfold Pipeline.afterTail₀
  show StableHlo.after hostOps1 _ (Proc.devRef .tc main_v1) = _
  after_results
  exact (congrArg (broadcastInDim S128x512x512x1 ![0, 1, 2] bcast_S128x512x512_S128x512x512x1_0_1_2)
    ((Pipeline.withArrays_arr spec0 launch0.win.arr_inj c (V0 m c) (fun w => (dats m 0 c).arrAt w (cfgs 0).N) 1).trans (final m c))).trans
    (Minkowski.gram_unit_axis _ bcast_S128x512x512_S128x512x512x1_0_1_2)

/-- THE RUN, READ: every weakly fair execution of the program terminates with the result buffer at the Gram array of
    the argument under a trailing unit axis, and the argument unchanged. The result buffer is no array of the pipeline,
    so the frame run states it as what the host operation after the region leaves (`tail_eq`); the argument is the
    pipeline's input array, which the region only reads. -/
theorem run : θ_run defs (onTc (τ := τ) (main (F := Ideal))) ⟨m, fun _ => 0, ρ⟩ fun r => ∀ c : Dev nD,
      r.2.mem ((c.tc : Thread nD τ).loc main_v1) = Minkowski.gram4 (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c)))⟩)
    (run_main m ρ)

end Cert.KernelIdeal.GramArray

end
-- ==== Proof.ReferenceRun.lean ====
/-
  The reference program's run, read back. Its @main is six host operations in a line: the metric's diagonal as a
  constant table of four words, that table laid along the last axis of a [1, 1, 4] array and then of the whole
  [128, 512, 4] array, the argument multiplied by it entry by entry, the batched contraction of the argument with
  that product over the last axis, and a trailing unit axis added. Every weakly fair execution terminates with the
  result buffer at those operations' composed term of the argument, and the argument unchanged.
-/
import proofs.«171760_j52725018525982_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The metric's diagonal as the program holds it: a table of four words. -/
abbrev metric : (⟨S4, .f32⟩ : BufTy).Contents (Elt F) := fun i => FloatOps.ofBits .f32 (lit0 (S4.rowMajor i))

/-- The contraction of the argument with its metric-weighted copy, before the trailing unit axis is added. -/
abbrev contracted (x : (⟨S128x512x4, .f32⟩ : BufTy).Contents (Elt F)) : (⟨S128x512x512, .f32⟩ : BufTy).Contents (Elt F) :=
  Host.dotGeneral dot_S128x512x4_S128x512x4_S128x512x512_2_2_1_1_0_0 none x
    (mulf x (broadcastInDim S128x512x4 ![0, 1, 2] bcast_S1x1x4_S128x512x4_0_1_2 (broadcastInDim S1x1x4 ![2] bcast_S4_S1x1x4_2 (metric (F := F)))))

/-- The program's result as a term of its argument. -/
abbrev result (x : (⟨S128x512x4, .f32⟩ : BufTy).Contents (Elt F)) : (⟨S128x512x512x1, .f32⟩ : BufTy).Contents (Elt F) :=
  broadcastInDim S128x512x512x1 ![0, 1, 2] bcast_S128x512x512_S128x512x512x1_0_1_2 (contracted x)

/-- @main's six operations, in order. -/
abbrev ops : List (HloOp τ sig (Elt F)) :=
  [ nullary main_cst (fun i => FloatOps.ofBits .f32 (lit0 (S4.rowMajor i))),
    unary main_cst main_v0 (broadcastInDim S1x1x4 ![2] bcast_S4_S1x1x4_2 : (⟨S4, .f32⟩ : BufTy).Contents (Elt F) → (⟨S1x1x4, .f32⟩ : BufTy).Contents (Elt F)),
    unary main_v0 main_v1 (broadcastInDim S128x512x4 ![0, 1, 2] bcast_S1x1x4_S128x512x4_0_1_2 : (⟨S1x1x4, .f32⟩ : BufTy).Contents (Elt F) → (⟨S128x512x4, .f32⟩ : BufTy).Contents (Elt F)),
    binary main_arg0 main_v1 main_v2 (mulf : (⟨S128x512x4, .f32⟩ : BufTy).Contents (Elt F) → (⟨S128x512x4, .f32⟩ : BufTy).Contents (Elt F) → (⟨S128x512x4, .f32⟩ : BufTy).Contents (Elt F)),
    binary main_arg0 main_v2 main_v3 ((fun l r => Host.dotGeneral dot_S128x512x4_S128x512x4_S128x512x512_2_2_1_1_0_0 none l r) : (⟨S128x512x4, .f32⟩ : BufTy).Contents (Elt F) → (⟨S128x512x4, .f32⟩ : BufTy).Contents (Elt F) → (⟨S128x512x512, .f32⟩ : BufTy).Contents (Elt F)),
    unary main_v3 main_v4 (broadcastInDim S128x512x512x1 ![0, 1, 2] bcast_S128x512x512_S128x512x512x1_0_1_2 : (⟨S128x512x512, .f32⟩ : BufTy).Contents (Elt F) → (⟨S128x512x512x1, .f32⟩ : BufTy).Contents (Elt F)) ]

/-- @main is the sequence of those operations. -/
theorem main_eq (c : Dev nD) : main (F := F) c = seq ops := rfl
/-- The program has no scoped buffer and no scoped semaphore. -/
theorem scopedRefs_eq : (Finset.univ.filter fun b : Ref sig .tc => b.isScoped) = ∅ := by decide
theorem scopedSems_eq : (Finset.univ.filter fun sm : SemLoc sig => sm.isScoped .tc) = ∅ := by decide
/-- Each operation touches TensorCore buffers only. -/
theorem ops_sub : (ops : List (HloOp τ sig (Elt F))).Forall fun op => op.bufs ⊆ tcRefs τ sig :=
  ⟨nullary_bufs_sub .., unary_bufs_sub .., unary_bufs_sub .., binary_bufs_sub .., binary_bufs_sub .., unary_bufs_sub ..⟩

/-- On every device, for any float values, from any memory with zero counters: every weakly fair execution of
    @main terminates with the result at the operations' composed term of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = result (m ((c.tc : Thread nD τ).loc main_arg0))
      ∧ r.2.mem ((c.tc : Thread nD τ).loc main_arg0) = m ((c.tc : Thread nD τ).loc main_arg0) :=
  (θ_run defs _ _).mono (fun _ h c => ⟨(h c main_v4).trans (by after_results; rfl),
      (h c main_arg0).trans (by after_results)⟩)
    (run_seq scopedRefs_eq scopedSems_eq defs main (fun _ => ops) main_eq (fun _ => ops_sub) m ρ)

end Cert.ReferenceIdeal.HostRun

end
-- ==== Proof.ReferenceGram.lean ====
/-
  The reference's contraction IS the Gram array. At the ideal values the host's batched contraction, read at
  (b, n, m), is the sum over the last axis d of the left operand at (b, n, d) times the right at (b, m, d); the right
  operand is the argument times the metric's table laid along the last axis, so its entry at (b, m, d) is
  x[b, m, d] · η_d. That is the Minkowski product of particles n and m of event b, term by term.
-/
import proofs.«171760_j52725018525982_1_alg».proof.Proof.Gen.ReferenceIdeal
import proofs.«171760_j52725018525982_1_alg».proof.Proof.Minkowski
import Idealize.ShloMosaic.Lib.ValueIdx
import Idealize.ShloMosaic.Lib.Pipeline.Value
import Idealize.ShloMosaic.PureOps.Ideal.Laws

noncomputable section

open scoped BigOperators

namespace Cert.ReferenceIdeal.RefGram

open Cert.ReferenceIdeal Cert.ReferenceIdeal.Gen Idealize.ShloMosaic Idealize.ShloMosaic.ValueIdx

/-- The contraction's dimension numbers: batch axis 0 with 0, contracted axis 2 with 2, free axis 1 on each side. -/
abbrev dims := dot_S128x512x4_S128x512x4_S128x512x512_2_2_1_1_0_0

/-! ### Where the contraction reads its operands: axis by axis -/

theorem lhs_axis0 (i : S128x512x512.Idx) (q : dims.contr.Idx) : (dims.lhsIdx i q 0).val = (i 0).val := by
  unfold DotDims.lhsIdx
  rw [dif_pos (show (0 : Fin S128x512x4.rank) ∈ dims.lhsBatch by decide)]
  rfl
theorem lhs_axis1 (i : S128x512x512.Idx) (q : dims.contr.Idx) : (dims.lhsIdx i q 1).val = (i 1).val := by
  unfold DotDims.lhsIdx
  rw [dif_neg (show ¬(1 : Fin S128x512x4.rank) ∈ dims.lhsBatch by decide), dif_pos (show (1 : Fin S128x512x4.rank) ∈ dims.lhsNonContracting by decide)]
  rfl
theorem lhs_axis2 (i : S128x512x512.Idx) (q : dims.contr.Idx) : (dims.lhsIdx i q 2).val = (q ⟨0, by decide⟩).val :=
  dims.lhsIdx_val_of_single rfl i q
theorem rhs_axis0 (i : S128x512x512.Idx) (q : dims.contr.Idx) : (dims.rhsIdx i q 0).val = (i 0).val := by
  unfold DotDims.rhsIdx
  rw [dif_pos (show (0 : Fin S128x512x4.rank) ∈ dims.rhsBatch by decide)]
  rfl
theorem rhs_axis1 (i : S128x512x512.Idx) (q : dims.contr.Idx) : (dims.rhsIdx i q 1).val = (i 2).val := by
  unfold DotDims.rhsIdx
  rw [dif_neg (show ¬(1 : Fin S128x512x4.rank) ∈ dims.rhsBatch by decide), dif_pos (show (1 : Fin S128x512x4.rank) ∈ dims.rhsNonContracting by decide)]
  rfl
theorem rhs_axis2 (i : S128x512x512.Idx) (q : dims.contr.Idx) : (dims.rhsIdx i q 2).val = (q ⟨0, by decide⟩).val :=
  dims.rhsIdx_val_of_single rfl i q

/-! ### The metric's table laid along the last axis -/

/-- The table's word at position `d` is the metric's diagonal entry. -/
theorem table_apply (d : Fin 4) : FloatOps.ofBits (F := Ideal) .f32 (lit0 (S4.rowMajor (ix1 d))) = Minkowski.eta d := by
  have hd : (S4.rowMajor (ix1 d) : Fin 4) = d := Fin.ext (Shape.rowMajor_val_one (ix1 d))
  have hw : lit0 (S4.rowMajor (ix1 d)) = lit0 d := congrArg lit0 hd
  show Ideal.ofBits .f32 (lit0 (S4.rowMajor (ix1 d))) = _
  rw [hw]
  unfold Minkowski.eta
  match d with
  | ⟨0, _⟩ => exact (if_pos rfl).symm
  | ⟨1, _⟩ => exact (if_neg (Nat.succ_ne_zero 0)).symm
  | ⟨2, _⟩ => exact (if_neg (Nat.succ_ne_zero 1)).symm
  | ⟨3, _⟩ => exact (if_neg (Nat.succ_ne_zero 2)).symm

/-- Broadcast to the whole array, the table reads `η_d` at every (b, m, d). -/
theorem weights_apply (b : Fin 128) (mm : Fin 512) (d : Fin 4) :
    broadcastInDim S128x512x4 ![0, 1, 2] bcast_S1x1x4_S128x512x4_0_1_2
        (broadcastInDim S1x1x4 ![2] bcast_S4_S1x1x4_2 (fun i => FloatOps.ofBits (F := Ideal) .f32 (lit0 (S4.rowMajor i)))) (ix3 b mm d)
      = Minkowski.eta d := by
  refine (broadcastInDim_apply _ _ _ (ix3 b mm d) (ix3 (0 : Fin 1) (0 : Fin 1) d) fun a => ?_).trans ?_
  · match a with
    | ⟨0, _⟩ => rfl
    | ⟨1, _⟩ => rfl
    | ⟨2, _⟩ => rfl
  refine (broadcastInDim_apply _ _ _ (ix3 (0 : Fin 1) (0 : Fin 1) d) (ix1 d) fun a => ?_).trans (table_apply d)
  match a with
  | ⟨0, _⟩ => rfl

/-! ### The contraction read at an index -/

/-- The reference's contraction of the argument with its metric-weighted copy is the Gram array. -/
theorem contracted_eq (x : FVec Ideal S128x512x4 .f32) :
    Host.dotGeneral dims none x
        (mulf x (broadcastInDim S128x512x4 ![0, 1, 2] bcast_S1x1x4_S128x512x4_0_1_2
          (broadcastInDim S1x1x4 ![2] bcast_S4_S1x1x4_2 (fun i => FloatOps.ofBits (F := Ideal) .f32 (lit0 (S4.rowMajor i))))))
      = Minkowski.gram x := by
  funext j
  obtain ⟨b, n, mm, rfl⟩ : ∃ (b : Fin 128) (n mm : Fin 512), j = ix3 b n mm := ⟨j 0, j 1, j 2, eq_ix3 j⟩
  simp only [Host.dotGeneral]
  rw [Ideal.dotGeneral_apply, ← Equiv.sum_comp (contrEquiv1 dims 4 rfl rfl).symm, Minkowski.gram_ix3]
  unfold Minkowski.dot4
  refine Finset.sum_congr rfl fun d _ => ?_
  have hk := contrEquiv1_symm_val dims 4 rfl rfl d
  have el : dims.lhsIdx (ix3 b n mm) ((contrEquiv1 dims 4 rfl rfl).symm d) = ix3 b n d := funext fun a => Fin.ext (by
    match a with
    | ⟨0, _⟩ => exact lhs_axis0 _ _
    | ⟨1, _⟩ => exact lhs_axis1 _ _
    | ⟨2, _⟩ => exact (lhs_axis2 _ _).trans hk)
  have er : dims.rhsIdx (ix3 b n mm) ((contrEquiv1 dims 4 rfl rfl).symm d) = ix3 b mm d := funext fun a => Fin.ext (by
    match a with
    | ⟨0, _⟩ => exact rhs_axis0 _ _
    | ⟨1, _⟩ => exact rhs_axis1 _ _
    | ⟨2, _⟩ => exact (rhs_axis2 _ _).trans hk)
  rw [el, er, mulf_apply, weights_apply]

/-- The reference's result — that contraction under a trailing unit axis — is the Gram array under a trailing unit axis. -/
theorem result_eq (x : FVec Ideal S128x512x4 .f32) :
    broadcastInDim S128x512x512x1 ![0, 1, 2] bcast_S128x512x512_S128x512x512x1_0_1_2
        (Host.dotGeneral dims none x
          (mulf x (broadcastInDim S128x512x4 ![0, 1, 2] bcast_S1x1x4_S128x512x4_0_1_2
            (broadcastInDim S1x1x4 ![2] bcast_S4_S1x1x4_2 (fun i => FloatOps.ofBits (F := Ideal) .f32 (lit0 (S4.rowMajor i)))))))
      = Minkowski.gram4 x := by
  rw [contracted_eq]
  exact Minkowski.gram_unit_axis x bcast_S128x512x512_S128x512x512x1_0_1_2

end Cert.ReferenceIdeal.RefGram

end
-- ==== Proof.lean ====
/-
  The certificate's proof. The kernel computes, for each of 128 events, the 512 × 512 Gram matrix of the event's
  four-momenta under the Minkowski metric diag(+1, −1, −1, −1): entry (n, m) is Σ_d p_n[d] · (p_m[d] · η_d). It does so
  one event per grid point, as a matrix product of the event's [512, 4] block with its metric-weighted copy, and a host
  operation then adds a trailing unit axis. The reference multiplies the whole argument by the metric's table and takes
  one batched contraction over the last axis, then adds the same unit axis.

  At the ideal values both are the same four-term sum at every index (Proof/Minkowski.lean states it once): the
  kernel's blocks tile the output, each block being its event's slab of that function (Proof/KernelBlock.lean,
  Proof/KernelArray.lean), and the reference's contraction read at an index is that sum too (Proof/ReferenceGram.lean
  over the reference's run, Proof/ReferenceRun.lean). The changes of float format inside the kernel are the identity at
  the ideal values, the product's zero accumulator adds nothing, and the metric's words ±1 are the same words on both
  sides, so no law beyond "equal terms have equal sums" is used and the finiteness of the input is never opened.
  The three frames: the two kernel programs' are the generated frame certificates; the reference's is its run with the
  result dropped. The idealization rewrote nothing, so there is nothing to preserve.
-/
import proofs.«171760_j52725018525982_1_alg».proof.Defs
import proofs.«171760_j52725018525982_1_alg».proof.Proof.Gen.Kernel
import proofs.«171760_j52725018525982_1_alg».proof.Proof.Gen.Kernel.Frame
import proofs.«171760_j52725018525982_1_alg».proof.Proof.Gen.KernelIdeal
import proofs.«171760_j52725018525982_1_alg».proof.Proof.Gen.KernelIdeal.Frame
import proofs.«171760_j52725018525982_1_alg».proof.Proof.Gen.ReferenceIdeal
import proofs.«171760_j52725018525982_1_alg».proof.Proof.Gen.Pre_finite_inputs
import proofs.«171760_j52725018525982_1_alg».proof.Proof.KernelArray
import proofs.«171760_j52725018525982_1_alg».proof.Proof.ReferenceRun
import proofs.«171760_j52725018525982_1_alg».proof.Proof.ReferenceGram
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame: its run, with what the result holds dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- Both programs, from memories that agree on the argument, end with the Gram array of the argument under a trailing
    unit axis: the kernel's output array is that function block by block, the reference's contraction index by index. -/
theorem algebraic : Cert.algebraic_KernelIdeal_ReferenceIdeal := by
  intro m ρ m' ρ' _ hagree
  refine ⟨fun c => Cert.Minkowski.gram4 (m ((c.tc : Thread Cert.KernelIdeal.nD Cert.KernelIdeal.τ).loc Cert.KernelIdeal.main_arg0)),
    Cert.KernelIdeal.GramArray.run m ρ, ?_⟩
  refine (θ_run Cert.ReferenceIdeal.defs _ _).mono (fun _ h c => ⟨(h c).1.trans ?_, (h c).2⟩)
    (Cert.ReferenceIdeal.HostRun.run (F := Ideal) m' ρ')
  rw [hagree c]
  exact Cert.ReferenceIdeal.RefGram.result_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
